-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192 : Shape := ⟨2, ![64, 8192]⟩
abbrev S4096x8192 : Shape := ⟨2, ![4096, 8192]⟩
abbrev S8192 : Shape := ⟨1, ![8192]⟩
abbrev S_ : Shape := ⟨0, ![]⟩

class Facts : Prop where
  bcast_S_S64x8192 : S_.BroadcastsInDim S64x8192 (![] : Fin 0 → Fin S64x8192.rank)
  reducesTo_S64x8192_S_d0_1 : S64x8192.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  main_v18

def fn {F : FTy → Type} [FloatOps F] (main_arg0 : FVec F S64x8192 .f32) (main_arg1 : IVec S4096x8192 32) (main_arg2 : FVec F S8192 .f32) (main_arg3 : FVec F S8192 .f32) (main_arg4 : FVec F S8192 .f32) : IVec S_ 1 :=
  let main_v0 : FVec F S64x8192 .f32 := Host.absf main_arg0
  let main_cst : FVec F S_ .f32 := constant S_ .f32 0x7F800000#32
  let main_v1 : FVec F S64x8192 .f32 := broadcastInDim S64x8192 ![] bcast_S_S64x8192 main_cst
  let main_v2 : IVec S64x8192 1 := cmpf .olt main_v0 main_v1
  let main_c : IVec S_ 1 := constantI S_ 1 1#1
  let main_v3 : IVec S_ 1 := (fun x v => Host.reduce IntOp.andi x v reducesTo_S64x8192_S_d0_1 h_S_) main_v2 main_c
  let main_v4 : FVec F S8192 .f32 := Host.absf main_arg2
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192 .f32 := Host.absf main_arg3
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192 .f32 := Host.absf main_arg4
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_v13 main_v16
-- ==== Kernel.lean ====
abbrev S64x8192 : Shape := ⟨2, ![64, 8192]⟩
abbrev S4096x8192 : Shape := ⟨2, ![4096, 8192]⟩
abbrev S8192 : Shape := ⟨1, ![8192]⟩
abbrev S128x8192 : Shape := ⟨2, ![128, 8192]⟩
abbrev S_ : Shape := ⟨0, ![]⟩
abbrev S64 : Shape := ⟨1, ![64]⟩
abbrev S64x1 : Shape := ⟨2, ![64, 1]⟩
abbrev S4096 : Shape := ⟨1, ![4096]⟩
abbrev S1x4096 : Shape := ⟨2, ![1, 4096]⟩
abbrev S64x4096 : Shape := ⟨2, ![64, 4096]⟩
abbrev S256x8192 : Shape := ⟨2, ![256, 8192]⟩
abbrev S1x256 : Shape := ⟨2, ![1, 256]⟩
abbrev S64x256 : Shape := ⟨2, ![64, 256]⟩
abbrev S128x256 : Shape := ⟨2, ![128, 256]⟩

abbrev nBuf : Space → Nat
  | .hbm => 28
  | .vmem => 20
  | .smem => 0
  | _ => 0

abbrev bufTy : (tb : Table) → Fin (tcTables nBuf tb) → BufTy
  | .hbm, ⟨0, _⟩ => ⟨S64x8192, .f32⟩
  | .hbm, ⟨1, _⟩ => ⟨S4096x8192, .i32⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S64x8192, .bf16⟩
  | .hbm, ⟨6, _⟩ => ⟨S64x8192, .f32⟩
  | .hbm, ⟨7, _⟩ => ⟨S64x8192, .f32⟩
  | .hbm, ⟨8, _⟩ => ⟨S64x8192, .bf16⟩
  | .hbm, ⟨9, _⟩ => ⟨S128x8192, .bf16⟩
  | .hbm, ⟨10, _⟩ => ⟨S_, .f32⟩
  | .hbm, ⟨11, _⟩ => ⟨S64, .f32⟩
  | .hbm, ⟨12, _⟩ => ⟨S64x1, .f32⟩
  | .hbm, ⟨13, _⟩ => ⟨S4096, .f32⟩
  | .hbm, ⟨14, _⟩ => ⟨S1x4096, .f32⟩
  | .hbm, ⟨15, _⟩ => ⟨S4096, .f32⟩
  | .hbm, ⟨16, _⟩ => ⟨S1x4096, .f32⟩
  | .hbm, ⟨17, _⟩ => ⟨S4096, .f32⟩
  | .hbm, ⟨18, _⟩ => ⟨S1x4096, .f32⟩
  | .hbm, ⟨19, _⟩ => ⟨S4096, .f32⟩
  | .hbm, ⟨20, _⟩ => ⟨S1x4096, .f32⟩
  | .hbm, ⟨21, _⟩ => ⟨S4096, .f32⟩
  | .hbm, ⟨22, _⟩ => ⟨S1x4096, .f32⟩
  | .hbm, ⟨23, _⟩ => ⟨S4096, .f32⟩
  | .hbm, ⟨24, _⟩ => ⟨S1x4096, .f32⟩
  | .hbm, ⟨25, _⟩ => ⟨S64x4096, .f32⟩
  | .hbm, ⟨26, _⟩ => ⟨S64x4096, .f32⟩
  | .hbm, ⟨27, _⟩ => ⟨S64x8192, .f32⟩
  | .local _ .vmem, ⟨0, _⟩ => ⟨S256x8192, .i32⟩
  | .local _ .vmem, ⟨1, _⟩ => ⟨S256x8192, .i32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S128x8192, .bf16⟩
  | .local _ .vmem, ⟨15, _⟩ => ⟨S64x1, .f32⟩
  | .local _ .vmem, ⟨16, _⟩ => ⟨S64x256, .f32⟩
  | .local _ .vmem, ⟨17, _⟩ => ⟨S64x256, .f32⟩
  | .local _ .vmem, ⟨18, _⟩ => ⟨S64x256, .f32⟩
  | .local _ .vmem, ⟨19, _⟩ => ⟨S64x256, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19_0 : Ref sig .tc := ⟨.hbm, 25, rfl⟩
abbrev main_v19_1 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x8192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  concatenates_S64x8192_S64x8192_S128x8192_d0 : Shape.Concatenates [S64x8192, S64x8192] S128x8192 0
  reducesTo_S64x8192_S64_d1 : S64x8192.ReducesTo [1] S64
  h_S_ : 0 < S_.numel
  bcast_S64_S64x1_0 : S64.BroadcastsInDim S64x1 (![0] : Fin 1 → Fin S64x1.rank)
  slices_S8192_S4096_0 : S8192.Slices ![0] S4096
  shapeCasts_S4096_S1x4096 : S4096.ShapeCasts S1x4096
  slices_S8192_S4096_4096 : S8192.Slices ![4096] S4096
  inb_S256x8192_S256x8192_0_0 : ∀ a, (![0, 0] : Fin 2 → Nat) a + S256x8192.size a ≤ S256x8192.size a
  h_S256x8192 : 0 < S256x8192.numel
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  inb_S64x1_S64x1_0_0 : ∀ a, (![0, 0] : Fin 2 → Nat) a + S64x1.size a ≤ S64x1.size a
  h_S64x1 : 0 < S64x1.numel
  shapeCasts_S64x1_S64x1 : S64x1.ShapeCasts S64x1
  slices_S128x256_o0_0_S64x256 : S128x256.Slices ![0, 0] S64x256
  slices_S128x256_o64_0_S64x256 : S128x256.Slices ![64, 0] S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S64x256 : S1x256.Broadcasts S64x256
  broadcasts_S64x1_S64x256 : S64x1.Broadcasts S64x256
  inb_S64x256_S64x256_0_0 : ∀ a, (![0, 0] : Fin 2 → Nat) a + S64x256.size a ≤ S64x256.size a
  h_S64x256 : 0 < S64x256.numel
  concatenates_S64x4096_S64x4096_S64x8192_d1 : Shape.Concatenates [S64x4096, S64x4096] S64x8192 1
  dot_S128x8192_S256x8192_S128x256_1_1_0_0_n_n_wf : DotDims.WF S128x8192 S256x8192 S128x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S4096x8192.size a
  hwx0_0 : ∀ i : grid0.Coords, EltTy.bits .i32 = 32 ∨ (Rect.block (s := S4096x8192) S256x8192.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x4096.size a
  hwx0_1 : ∀ i : grid0.Coords, EltTy.bits .f32 = 32 ∨ (Rect.block (s := S1x4096) S1x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x4096.size a
  hwx0_2 : ∀ i : grid0.Coords, EltTy.bits .f32 = 32 ∨ (Rect.block (s := S1x4096) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x4096.size a
  hwx0_3 : ∀ i : grid0.Coords, EltTy.bits .f32 = 32 ∨ (Rect.block (s := S1x4096) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x4096.size a
  hwx0_4 : ∀ i : grid0.Coords, EltTy.bits .f32 = 32 ∨ (Rect.block (s := S1x4096) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x4096.size a
  hwx0_5 : ∀ i : grid0.Coords, EltTy.bits .f32 = 32 ∨ (Rect.block (s := S1x4096) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x4096.size a
  hwx0_6 : ∀ i : grid0.Coords, EltTy.bits .f32 = 32 ∨ (Rect.block (s := S1x4096) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x8192.size a ≤ S128x8192.size a
  hwx0_7 : ∀ i : grid0.Coords, EltTy.bits .bf16 = 32 ∨ (Rect.block (s := S128x8192) S128x8192.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x1.size a ≤ S64x1.size a
  hwx0_8 : ∀ i : grid0.Coords, EltTy.bits .f32 = 32 ∨ (Rect.block (s := S64x1) S64x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x256.size a ≤ S64x4096.size a
  hwx0_9 : ∀ i : grid0.Coords, EltTy.bits .f32 = 32 ∨ (Rect.block (s := S64x4096) S64x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S64x256.size a ≤ S64x4096.size a
  hwx0_10 : ∀ i : grid0.Coords, EltTy.bits .f32 = 32 ∨ (Rect.block (s := S64x4096) S64x256.size (cc0_transform_10 i) (hinb0_10 i)).WholeWords (EltTy.packing .f32)

variable [Facts₀]

def dot_S128x8192_S256x8192_S128x256_1_1_0_0_n_n : DotDims S128x8192 S256x8192 S128x256 where
  lhsContracting := [1]
  rhsContracting := [1]
  lhsNonContracting := [0]
  rhsNonContracting := [0]
  lhsBatch := []
  rhsBatch := []
  wf := dot_S128x8192_S256x8192_S128x256_1_1_0_0_n_n_wf

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4) S128x8192.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S64x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19_0) S64x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v19_1) S64x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S64x8192 : Shape := ⟨2, ![64, 8192]⟩
abbrev S4096x8192 : Shape := ⟨2, ![4096, 8192]⟩
abbrev S8192 : Shape := ⟨1, ![8192]⟩
abbrev S_ : Shape := ⟨0, ![]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 30
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S4096x8192, .i32⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S_, .i32⟩
  | .hbm, ⟨6, _⟩ => ⟨S4096x8192, .i32⟩
  | .hbm, ⟨7, _⟩ => ⟨S4096x8192, .i32⟩
  | .hbm, ⟨8, _⟩ => ⟨S_, .i32⟩
  | .hbm, ⟨9, _⟩ => ⟨S4096x8192, .i32⟩
  | .hbm, ⟨10, _⟩ => ⟨S4096x8192, .i32⟩
  | .hbm, ⟨11, _⟩ => ⟨S_, .i32⟩
  | .hbm, ⟨12, _⟩ => ⟨S4096x8192, .i32⟩
  | .hbm, ⟨13, _⟩ => ⟨S4096x8192, .i32⟩
  | .hbm, ⟨14, _⟩ => ⟨S_, .i32⟩
  | .hbm, ⟨15, _⟩ => ⟨S4096x8192, .i32⟩
  | .hbm, ⟨16, _⟩ => ⟨S4096x8192, .i32⟩
  | .hbm, ⟨17, _⟩ => ⟨S8192x8192, .i32⟩
  | .hbm, ⟨18, _⟩ => ⟨S8192x8192, .f32⟩
  | .hbm, ⟨19, _⟩ => ⟨S8192x1, .f32⟩
  | .hbm, ⟨20, _⟩ => ⟨S8192x8192, .f32⟩
  | .hbm, ⟨21, _⟩ => ⟨S8192x8192, .f32⟩
  | .hbm, ⟨22, _⟩ => ⟨S8192x1, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S64x8192, .f32⟩
  | .hbm, ⟨27, _⟩ => ⟨S1x8192, .f32⟩
  | .hbm, ⟨28, _⟩ => ⟨S64x8192, .f32⟩
  | .hbm, ⟨29, _⟩ => ⟨S64x8192, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)
  concatenates_S4096x8192_S4096x8192_S8192x8192_d0 : Shape.Concatenates [S4096x8192, S4096x8192] S8192x8192 0
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  transposes_S8192x8192_S8192x8192_1_0 : S8192x8192.Transposes [1, 0] S8192x8192
  bcast_S8192_S1x8192_1 : S8192.BroadcastsInDim S1x8192 (![1] : Fin 1 → Fin S1x8192.rank)
  bcast_S1x8192_S64x8192_0_1 : S1x8192.BroadcastsInDim S64x8192 (![0, 1] : Fin 2 → Fin S64x8192.rank)
  dot_S64x8192_S8192x8192_S64x8192_1_0_0_1_n_n_wf : DotDims.WF S64x8192 S8192x8192 S64x8192 [1] [0] [0] [1] [] []

variable [Facts₀]

def dot_S64x8192_S8192x8192_S64x8192_1_0_0_1_n_n : DotDims S64x8192 S8192x8192 S64x8192 where
  lhsContracting := [1]
  rhsContracting := [0]
  lhsNonContracting := [0]
  rhsNonContracting := [1]
  lhsBatch := []
  rhsBatch := []
  wf := dot_S64x8192_S8192x8192_S64x8192_1_0_0_1_n_n_wf

class Facts : Prop extends Facts₀ where

variable [Facts]
-- ==== Proof.Spec.lean ====
/-
  The mathematics of the certificate, over literal shapes and importing no program.

  An activation matrix `x : [64, 8192]`, a packed weight matrix `wp : [4096, 8192]` of 32-bit words each holding two
  4-bit fields, and per-output-channel vectors `δ`, `zp`, `β : [8192]`. Output channel `o` takes its quantized weight
  row from the LOW field (bits 0–3) of packed row `o` when `o < 4096`, and from the HIGH field (bits 4–7) of packed
  row `o - 4096` otherwise. Read as a real number, that field is `q o k`.

  The reference dequantizes first and then contracts:
      out b o = (∑ k, x b k * ((q o k - zp o) * δ o)) + β o.
  The kernel contracts the raw fields and corrects afterwards, with the activation split in two parts `x` and `x - x`
  (over the extended reals a format change is the identity, so the second part is the difference of a number with
  itself) and the row sum `∑ k, x b k` taken once:
      kOut b o = δ o * ((∑ k, x b k * q o k + ∑ k, (x b k - x b k) * q o k) - zp o * ∑ k, x b k) + β o.
  The two agree when `x`, `zp` and `δ` are finite (Algebra.lean): then `x b k - x b k = 0`, and the product
  distributes over the sum and the difference, which it does not at the infinities.
-/
import Idealize.ShloMosaic.PureOps.Ideal
import Idealize.ShloMosaic.Lib.ValueIdx

noncomputable section

namespace Cert.Spec

open Idealize.ShloMosaic Idealize.ShloMosaic.ValueIdx

/-- Index types of the arrays, by their literal extents. -/
abbrev I64x8192 := (⟨2, ![64, 8192]⟩ : Shape).Idx
abbrev I4096x8192 := (⟨2, ![4096, 8192]⟩ : Shape).Idx
abbrev I8192 := (⟨1, ![8192]⟩ : Shape).Idx

/-- The low 4-bit field of a packed word. -/
def lowField (w : BitVec 32) : BitVec 32 := IntOp.andi w 15#32
/-- The next 4-bit field: an arithmetic shift by four, then the same mask (the mask removes the sign extension). -/
def highField (w : BitVec 32) : BitVec 32 := IntOp.andi (IntOp.shrsi .host w 4#32) 15#32

/-- The quantized weight of output channel `o` at input channel `k`, as a word: the low field of packed row `o` for the
    first 4096 channels, the high field of packed row `o - 4096` for the rest. -/
def field (wp : I4096x8192 → BitVec 32) (o k : Fin 8192) : BitVec 32 :=
  if h : o.val < 4096 then lowField (wp (ix2 (⟨o.val, h⟩ : Fin 4096) k))
  else highField (wp (ix2 (⟨o.val - 4096, by have := o.isLt; omega⟩ : Fin 4096) k))

/-- The same as a number: the word read as a signed integer. -/
def q (wp : I4096x8192 → BitVec 32) (o k : Fin 8192) : EReal := (((field wp o k).toInt : ℝ) : EReal)

/-- The reference's value at batch row `b`, output channel `o`: dequantize, contract, add the bias. -/
def outAt (x : I64x8192 → EReal) (wp : I4096x8192 → BitVec 32) (δ zp β : I8192 → EReal) (b : Fin 64) (o : Fin 8192) : EReal :=
  (∑ k : Fin 8192, x (ix2 b k) * ((q wp o k - zp (ix1 o)) * δ (ix1 o))) + β (ix1 o)

/-- The reference's result array. -/
def out (x : I64x8192 → EReal) (wp : I4096x8192 → BitVec 32) (δ zp β : I8192 → EReal) : I64x8192 → EReal :=
  fun i => outAt x wp δ zp β (i 0) (i 1)

theorem out_ix2 (x : I64x8192 → EReal) (wp : I4096x8192 → BitVec 32) (δ zp β : I8192 → EReal) (b : Fin 64) (o : Fin 8192) :
    out x wp δ zp β (ix2 b o) = outAt x wp δ zp β b o := rfl

/-- The kernel's value at batch row `b`, output channel `o`: contract the raw fields against both parts of the split
    activation, subtract the zero point times the row sum, scale, add the bias. -/
def kOutAt (x : I64x8192 → EReal) (wp : I4096x8192 → BitVec 32) (δ zp β : I8192 → EReal) (b : Fin 64) (o : Fin 8192) : EReal :=
  δ (ix1 o) * ((∑ k : Fin 8192, x (ix2 b k) * q wp o k + ∑ k : Fin 8192, (x (ix2 b k) - x (ix2 b k)) * q wp o k)
      - zp (ix1 o) * ∑ k : Fin 8192, x (ix2 b k)) + β (ix1 o)

/-- The kernel's result array. -/
def kOut (x : I64x8192 → EReal) (wp : I4096x8192 → BitVec 32) (δ zp β : I8192 → EReal) : I64x8192 → EReal :=
  fun i => kOutAt x wp δ zp β (i 0) (i 1)

theorem kOut_ix2 (x : I64x8192 → EReal) (wp : I4096x8192 → BitVec 32) (δ zp β : I8192 → EReal) (b : Fin 64) (o : Fin 8192) :
    kOut x wp δ zp β (ix2 b o) = kOutAt x wp δ zp β b o := rfl

/-- Every entry of an array is a real number (neither infinity). -/
def Finite {ι : Type} (v : ι → EReal) : Prop := ∀ i, v i ≠ ⊤ ∧ v i ≠ ⊥

end Cert.Spec

end
-- ==== Proof.Algebra.lean ====
/-
  The law that joins the two forms of Spec.lean: for finite `x`, `zp`, `δ` the kernel's corrected contraction is the
  reference's contraction of the dequantized weights.
-/
import proofs.«409068_j31748398252838_3_alg».proof.Proof.Spec

noncomputable section

namespace Cert.Spec

open Idealize.ShloMosaic Idealize.ShloMosaic.ValueIdx

/-- The coercion of the reals into the extended reals commutes with finite sums. -/
private theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The law over the reals: the difference of a number with itself is zero, and the scale and the zero point
    distribute over the sums. -/
private theorem real_law {ι : Type} [Fintype ι] (xr qr : ι → ℝ) (z d : ℝ) :
    d * ((∑ k, xr k * qr k + ∑ k, (xr k - xr k) * qr k) - z * ∑ k, xr k)
      = ∑ k, xr k * ((qr k - z) * d) := by
  have h : ∀ k, xr k * ((qr k - z) * d) = d * (xr k * qr k) - d * z * xr k := fun k => by ring
  simp only [h, sub_self, zero_mul, Finset.sum_const_zero, add_zero, Finset.sum_sub_distrib, ← Finset.mul_sum]
  ring

/-- The same law for the coercions of real numbers into the extended reals. -/
private theorem ereal_law {ι : Type} [Fintype ι] (xr qr : ι → ℝ) (z d : ℝ) :
    (d : EReal) * ((∑ k, (xr k : EReal) * (qr k : EReal) + ∑ k, ((xr k : EReal) - (xr k : EReal)) * (qr k : EReal))
        - (z : EReal) * ∑ k, (xr k : EReal))
      = ∑ k, (xr k : EReal) * (((qr k : EReal) - (z : EReal)) * (d : EReal)) := by
  simp only [← EReal.coe_mul, ← EReal.coe_sub, ← coe_sum, ← EReal.coe_add]
  exact congrArg _ (real_law xr qr z d)

/-- The two forms agree at every batch row and output channel. -/
private theorem kOutAt_eq_outAt (x : I64x8192 → EReal) (wp : I4096x8192 → BitVec 32) (δ zp β : I8192 → EReal)
    (hx : Finite x) (hδ : Finite δ) (hzp : Finite zp) (b : Fin 64) (o : Fin 8192) :
    kOutAt x wp δ zp β b o = outAt x wp δ zp β b o := by
  have hxk : ∀ j, (((x j).toReal : ℝ) : EReal) = x j := fun j => EReal.coe_toReal (hx j).1 (hx j).2
  have hd : (((δ (ix1 o)).toReal : ℝ) : EReal) = δ (ix1 o) := EReal.coe_toReal (hδ _).1 (hδ _).2
  have hz : (((zp (ix1 o)).toReal : ℝ) : EReal) = zp (ix1 o) := EReal.coe_toReal (hzp _).1 (hzp _).2
  have key := ereal_law (fun k : Fin 8192 => (x (ix2 b k)).toReal) (fun k : Fin 8192 => ((field wp o k).toInt : ℝ))
    (zp (ix1 o)).toReal (δ (ix1 o)).toReal
  simp only [hxk, hd, hz] at key
  unfold kOutAt outAt q
  exact congrArg (· + β (ix1 o)) key

theorem kOut_eq_out (x : I64x8192 → EReal) (wp : I4096x8192 → BitVec 32) (δ zp β : I8192 → EReal)
    (hx : Finite x) (hδ : Finite δ) (hzp : Finite zp) : kOut x wp δ zp β = out x wp δ zp β := by
  funext i
  exact kOutAt_eq_outAt x wp δ zp β hx hδ hzp (i 0) (i 1)

end Cert.Spec

end
-- ==== Proof.FiniteInputs.lean ====
/-
  From the printed precondition to "every entry of every float input is a real number".
-/
import proofs.«409068_j31748398252838_3_alg».proof.Pre_finite_inputs
import proofs.«409068_j31748398252838_3_alg».proof.Proof.Gen.Pre_finite_inputs
import proofs.«409068_j31748398252838_3_alg».proof.Proof.Spec
import Idealize.ShloMosaic.Lib.ReduceAll

noncomputable section

namespace Cert.FiniteInputs

open Idealize.ShloMosaic Idealize.ShloMosaic.ValueIdx Cert.Pre_finite_inputs

/-- The pattern `0x7F800000` of the 32-bit format denotes `+∞`. -/
private theorem ofBits_inf : Ideal.ofBits .f32 0x7F800000#32 = ⊤ := by simp [Ideal.ofBits, Ideal.ieee]

/-- On one value: if `|a| < +∞` holds (the comparison's bit is 1) then `a` is neither infinity. -/
private theorem finite_of_abs_lt_top (a : EReal) (h : Ideal.cmp .olt (max a (-a)) ⊤ = 1#1) : a ≠ ⊤ ∧ a ≠ ⊥ := by
  have hlt : max a (-a) < ⊤ := by
    by_contra hn
    simp [Ideal.cmp, hn] at h
  rw [max_lt_iff] at hlt
  refine ⟨ne_of_lt hlt.1, ?_⟩
  intro hb
  rw [hb] at hlt
  simp at hlt

/-- One input's bit: if the all-reduce by `and` of the elementwise test `|x| < +∞` over every axis is 1, then every entry
    of `x` is a real number. Generic in the shape and the axes; the result has rank 0, so it has a single index. -/
private theorem finite_of_bit {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
        (cmpf .olt (Host.absf x) (broadcastInDim s ![] hb (constant (F := Ideal) S_ .f32 0x7F800000#32))) init hr hu ix0 = 1#1) :
    Cert.Spec.Finite x := by
  haveI : Subsingleton S_.Idx := ⟨fun a b => funext fun d => d.elim0⟩
  intro i
  have hi := Host.reduce_andi_all _ init hr hu ix0 e i
  have hi' : Ideal.cmp .olt (max (x i) (-(x i))) (Ideal.ofBits .f32 0x7F800000#32) = 1#1 := hi
  rw [ofBits_inf] at hi'
  exact finite_of_abs_lt_top (x i) hi'

theorem of_pre (x0 : FVec Ideal S64x8192 .f32) (x1 : IVec S4096x8192 32) (x2 x3 x4 : FVec Ideal S8192 .f32)
    (h : Cert.Pre_finite_inputs.fn (F := Ideal) x0 x1 x2 x3 x4 = fun _ => 1#1) :
    Cert.Spec.Finite x0 ∧ Cert.Spec.Finite x2 ∧ Cert.Spec.Finite x3 ∧ Cert.Spec.Finite x4 := by
  have h0 := congrFun h ix0
  dsimp only [Cert.Pre_finite_inputs.fn, Cert.Pre_finite_inputs.fn_part1] at h0
  -- the result bit is the conjunction ((b0 ∧ b2) ∧ b3) ∧ b4 of the four inputs' bits
  obtain ⟨h012, h4⟩ := IntOp.andi_eq_one.1 h0
  obtain ⟨h01, h3⟩ := IntOp.andi_eq_one.1 h012
  obtain ⟨hx0, hx2⟩ := IntOp.andi_eq_one.1 h01
  exact ⟨finite_of_bit x0 _ _ _ _ hx0, finite_of_bit x2 _ _ _ _ hx2, finite_of_bit x3 _ _ _ _ h3,
    finite_of_bit x4 _ _ _ _ h4⟩

end Cert.FiniteInputs

end
-- ==== Proof.RefSide.lean ====
/-
  The reference program's result, stage by stage, is Spec.lean's `out` of its arguments.
-/
import proofs.«409068_j31748398252838_3_alg».proof.Proof.Gen.ReferenceIdeal.Read
import proofs.«409068_j31748398252838_3_alg».proof.Proof.Spec

noncomputable section

namespace Cert.RefSide

open Cert.ReferenceIdeal Cert.ReferenceIdeal.Gen Idealize.ShloMosaic Idealize.ShloMosaic.ValueIdx Cert.ReferenceIdeal.Read

/-- An arithmetic shift by zero places leaves the word as it is. -/
private theorem shrsi_zero (w : BitVec 32) : IntOp.shrsi .host w 0#32 = w := by
  simp [IntOp.shrsi]

/-- The first piece of the concatenation at packed row `r`, column `k`: the low field of the packed word. -/
private theorem v3_at (x1 : (⟨S4096x8192, .i32⟩ : BufTy).Contents (Elt Ideal)) (r : Fin 4096) (k : Fin 8192) :
    val_main_v3 (F := Ideal) x1 (ix2 r k) = Cert.Spec.lowField (x1 (ix2 r k)) := by
  rw [val_main_v3_apply, val_main_v1_apply, val_main_v0_apply, val_main_c_apply, val_main_v2_apply,
    val_main_c_0_apply, shrsi_zero]
  rfl

/-- The second piece at packed row `r`, column `k`: the high field of the packed word. -/
private theorem v7_at (x1 : (⟨S4096x8192, .i32⟩ : BufTy).Contents (Elt Ideal)) (r : Fin 4096) (k : Fin 8192) :
    val_main_v7 (F := Ideal) x1 (ix2 r k) = Cert.Spec.highField (x1 (ix2 r k)) := by
  rw [val_main_v7_apply, val_main_v5_apply, val_main_v4_apply, val_main_c_1_apply, val_main_v6_apply,
    val_main_c_2_apply]
  rfl

/-- The concatenation along the row axis at output channel `o`, column `k`: rows below 4096 come from the first
    piece at the same row, the others from the second piece at row `o - 4096`. This is `Spec.field`. -/
private theorem v8_at (x1 : (⟨S4096x8192, .i32⟩ : BufTy).Contents (Elt Ideal)) (o k : Fin 8192) :
    val_main_v8 (F := Ideal) x1 (ix2 o k) = Cert.Spec.field x1 o k := by
  unfold val_main_v8 Cert.Spec.field
  by_cases h : o.val < 4096
  · rw [dif_pos h]
    refine (concatenate_pair_apply_left (0 : Fin S8192x8192.rank) (val_main_v3 (F := Ideal) x1) (val_main_v7 (F := Ideal) x1)
      concatenates_S4096x8192_S4096x8192_S8192x8192_d0 (ix2 o k) rfl (ix2 (⟨o.val, h⟩ : Fin 4096) k) ?_).trans
      (v3_at x1 _ k)
    intro b
    match b with
    | ⟨0, _⟩ => rfl
    | ⟨1, _⟩ => rfl
  · rw [dif_neg h]
    have ho := o.isLt
    refine (concatenate_pair_apply_right (0 : Fin S8192x8192.rank) (val_main_v3 (F := Ideal) x1) (val_main_v7 (F := Ideal) x1)
      concatenates_S4096x8192_S4096x8192_S8192x8192_d0 (ix2 o k) rfl rfl
      (ix2 (⟨o.val - 4096, by omega⟩ : Fin 4096) k) ?_ ?_).trans (v7_at x1 _ k)
    · intro b hb
      match b, hb with
      | ⟨0, _⟩, hb => exact absurd rfl hb
      | ⟨1, _⟩, _ => rfl
    · show (o.val - 4096) + 4096 = o.val
      omega

/-- The dequantized, transposed weight at contraction index `k`, output channel `o`:
    the field read as a number, minus the zero point, times the scale. -/
private theorem v16_at (x1 : (⟨S4096x8192, .i32⟩ : BufTy).Contents (Elt Ideal))
    (x2 x3 : (⟨S8192, .f32⟩ : BufTy).Contents (Elt Ideal)) (k o : Fin 8192) :
    val_main_v16 (F := Ideal) x1 x2 x3 (ix2 k o)
      = (Cert.Spec.q x1 o k - x3 (ix1 o)) * x2 (ix1 o) := by
  have e16 : idx_main_v16 (ix2 k o) = ix2 o k :=
    funext fun a => Fin.ext (by match a with | ⟨0, _⟩ => rfl | ⟨1, _⟩ => rfl)
  have e3 : idx_main_v10 (idx_main_v11 (ix2 o k)) = ix1 o :=
    funext fun a => Fin.ext (by match a with | ⟨0, _⟩ => rfl)
  have e2 : idx_main_v13 (idx_main_v14 (ix2 o k)) = ix1 o :=
    funext fun a => Fin.ext (by match a with | ⟨0, _⟩ => rfl)
  rw [val_main_v16_apply, e16, val_main_v15_apply, val_main_v12_apply, val_main_v14_apply, val_main_v13_apply, e2,
    val_main_v11_apply, val_main_v10_apply, e3, val_main_v9_apply, v8_at, Ideal.mulf_def, Ideal.subf_def]
  rfl

theorem ref_eq (x0 : (⟨S64x8192, .f32⟩ : BufTy).Contents (Elt Ideal)) (x1 : (⟨S4096x8192, .i32⟩ : BufTy).Contents (Elt Ideal))
    (x2 x3 x4 : (⟨S8192, .f32⟩ : BufTy).Contents (Elt Ideal)) :
    val_main_v20 (F := Ideal) x0 x1 x2 x3 x4 = Cert.Spec.out x0 x1 x2 x3 x4 := by
  funext i
  obtain ⟨b, o, rfl⟩ : ∃ (b : Fin 64) (o : Fin 8192), i = ix2 b o := ⟨i 0, i 1, eq_ix2 i⟩
  rw [Cert.Spec.out_ix2]
  unfold Cert.Spec.outAt
  have e4 : idx_main_v18 (idx_main_v19 (ix2 b o)) = ix1 o :=
    funext fun a => Fin.ext (by match a with | ⟨0, _⟩ => rfl)
  rw [val_main_v20_apply, val_main_v17_apply, val_main_v19_apply, val_main_v18_apply, e4, Ideal.addf_def]
  refine congrArg (· + x4 (ix1 o)) (Finset.sum_congr rfl fun k _ => ?_)
  have el : lidx_main_v17 (ix2 b o) k = ix2 b k :=
    funext fun a => Fin.ext (by match a with | ⟨0, _⟩ => rfl | ⟨1, _⟩ => rfl)
  have er : ridx_main_v17 (ix2 b o) k = ix2 k o :=
    funext fun a => Fin.ext (by match a with | ⟨0, _⟩ => rfl | ⟨1, _⟩ => rfl)
  rw [el, er, v16_at]

end Cert.RefSide

end
-- ==== Proof.KernelBody.lean ====
/-
  The kernel body's two stores, read at an index of the output block.

  At a grid point the body holds a block `w : [256, 8192]` of packed words, the stacked activation `xs : [128, 8192]`
  (rows 0–63 one part, rows 64–127 the other), the row sums `s : [64, 1]`, and blocks `d`, `z`, `bi : [1, 256]` of
  the scale, the zero point and the bias. Each store's value at `(p, r)` is
      d r * ((∑ k, xs p k * f (w r k) + ∑ k, xs (64 + p) k * f (w r k)) - z r * s p) + bi r,
  with `f` the 4-bit field the store is for (the low field for the first output, the high field for the second), read
  as a number: the matrix unit's product of the stacked activation with the field matrix, its upper and lower halves
  added, then the affine correction.
-/
import proofs.«409068_j31748398252838_3_alg».proof.Proof.Gen.KernelIdeal.Skeleton
import proofs.«409068_j31748398252838_3_alg».proof.Proof.Spec
import Idealize.ShloMosaic.Lib.Pipeline.Value
import Idealize.ShloMosaic.Lib.ValueLayout
import Idealize.ShloMosaic.Lib.KernelVsHost
import Idealize.ShloMosaic.PureOps.Ideal.Laws

noncomputable section

namespace Cert.KernelIdeal.Body

open Cert.KernelIdeal Cert.KernelIdeal.Gen Idealize.ShloMosaic Idealize.ShloMosaic.ValueIdx

/-- One output tile at `(p, r)`, for the 4-bit field `f`. -/
def tileAt (f : BitVec 32 → BitVec 32) (w : S256x8192.Idx → BitVec 32) (xs : S128x8192.Idx → EReal) (s : S64x1.Idx → EReal)
    (d z bi : S1x256.Idx → EReal) (p : Fin 64) (r : Fin 256) : EReal :=
  d (ix2 (0 : Fin 1) r)
      * ((∑ k : Fin 8192, xs (ix2 (⟨p.val, by omega⟩ : Fin 128) k) * (((f (w (ix2 r k))).toInt : ℝ) : EReal)
          + ∑ k : Fin 8192, xs (ix2 (⟨64 + p.val, by omega⟩ : Fin 128) k) * (((f (w (ix2 r k))).toInt : ℝ) : EReal))
        - z (ix2 (0 : Fin 1) r) * s (ix2 p (0 : Fin 1)))
    + bi (ix2 (0 : Fin 1) r)

/-! ## The layout operations of the body, at an index -/

/-- A row `[1, 256]` (through an identity cast) broadcast over 64 rows reads the row at the column. -/
theorem row_bcast (v : S1x256.Idx → EReal) (hc : S1x256.ShapeCasts S1x256) (hb : S1x256.Broadcasts S64x256) (p : Fin 64) (r : Fin 256) :
    broadcastTo S64x256 (shapeCast S1x256 v hc) hb (ix2 p r) = v (ix2 (0 : Fin 1) r) := by
  rw [shapeCast_self]
  exact broadcastTo_1b_ab_apply v hb p r

/-- A column `[64, 1]` (through an identity cast) broadcast over 256 columns reads the column at the row. -/
theorem col_bcast (v : S64x1.Idx → EReal) (hc : S64x1.ShapeCasts S64x1) (hb : S64x1.Broadcasts S64x256) (p : Fin 64) (r : Fin 256) :
    broadcastTo S64x256 (shapeCast S64x1 v hc) hb (ix2 p r) = v (ix2 p (0 : Fin 1)) := by
  rw [shapeCast_self]
  refine broadcastTo_apply v hb (ix2 p r) (ix2 p (0 : Fin 1)) fun ax => ?_
  match ax with
  | ⟨0, _⟩ =>
    show p.val = if (64 : Nat) = 1 then 0 else p.val
    rw [if_neg (by decide)]
  | ⟨1, _⟩ =>
    show (0 : Nat) = if (1 : Nat) = 1 then 0 else r.val
    rw [if_pos rfl]

/-- The upper half of a `[128, 256]` product. -/
theorem upper_half (M : S128x256.Idx → EReal) (h : S128x256.Slices ![0, 0] S64x256) (p : Fin 64) (r : Fin 256) :
    extractStridedSlice S64x256 ![0, 0] M h (ix2 p r) = M (ix2 (⟨p.val, by omega⟩ : Fin 128) r) :=
  slice2_axis0_apply 0 M h p r ⟨p.val, by omega⟩ (by simp)

/-- The lower half. -/
theorem lower_half (M : S128x256.Idx → EReal) (h : S128x256.Slices ![64, 0] S64x256) (p : Fin 64) (r : Fin 256) :
    extractStridedSlice S64x256 ![64, 0] M h (ix2 p r) = M (ix2 (⟨64 + p.val, by omega⟩ : Fin 128) r) :=
  slice2_axis0_apply 64 M h p r ⟨64 + p.val, by omega⟩ rfl

/-! ## The matrix product, at an index -/

theorem lhs_axis0 (i : S128x256.Idx) (q : dot_S128x8192_S256x8192_S128x256_1_1_0_0_n_n.contr.Idx) :
    (dot_S128x8192_S256x8192_S128x256_1_1_0_0_n_n.lhsIdx i q 0).val = (i 0).val := by
  unfold DotDims.lhsIdx
  rw [dif_neg (show ¬(0 : Fin S128x8192.rank) ∈ dot_S128x8192_S256x8192_S128x256_1_1_0_0_n_n.lhsBatch by decide), dif_pos (show (0 : Fin S128x8192.rank) ∈ dot_S128x8192_S256x8192_S128x256_1_1_0_0_n_n.lhsNonContracting by decide)]
  rfl
theorem lhs_axis1 (i : S128x256.Idx) (q : dot_S128x8192_S256x8192_S128x256_1_1_0_0_n_n.contr.Idx) :
    (dot_S128x8192_S256x8192_S128x256_1_1_0_0_n_n.lhsIdx i q 1).val = (q ⟨0, by decide⟩).val :=
  dot_S128x8192_S256x8192_S128x256_1_1_0_0_n_n.lhsIdx_val_of_single rfl i q
theorem rhs_axis0 (i : S128x256.Idx) (q : dot_S128x8192_S256x8192_S128x256_1_1_0_0_n_n.contr.Idx) :
    (dot_S128x8192_S256x8192_S128x256_1_1_0_0_n_n.rhsIdx i q 0).val = (i 1).val := by
  unfold DotDims.rhsIdx
  rw [dif_neg (show ¬(0 : Fin S256x8192.rank) ∈ dot_S128x8192_S256x8192_S128x256_1_1_0_0_n_n.rhsBatch by decide), dif_pos (show (0 : Fin S256x8192.rank) ∈ dot_S128x8192_S256x8192_S128x256_1_1_0_0_n_n.rhsNonContracting by decide)]
  rfl
theorem rhs_axis1 (i : S128x256.Idx) (q : dot_S128x8192_S256x8192_S128x256_1_1_0_0_n_n.contr.Idx) :
    (dot_S128x8192_S256x8192_S128x256_1_1_0_0_n_n.rhsIdx i q 1).val = (q ⟨0, by decide⟩).val :=
  dot_S128x8192_S256x8192_S128x256_1_1_0_0_n_n.rhsIdx_val_of_single rfl i q

/-- The product of the stacked activation with a field matrix, both contracted on their second axis, into a zero
    accumulator: at `(a, r)` the sum over `k` of `xs a k * Q r k`. -/
theorem matmul_at (xs : FVec Ideal S128x8192 .bf16) (Q : FVec Ideal S256x8192 .bf16) (a : Fin 128) (r : Fin 256) :
    matmul dot_S128x8192_S256x8192_S128x256_1_1_0_0_n_n none xs Q (constant S128x256 .f32 0x00000000#32) (ix2 a r)
      = ∑ k : Fin 8192, xs (ix2 a k) * Q (ix2 r k) := by
  simp only [matmul]
  rw [Ideal.matmul_constant_zero_apply, ← Equiv.sum_comp (ValueIdx.contrEquiv1 dot_S128x8192_S256x8192_S128x256_1_1_0_0_n_n 8192 rfl rfl).symm]
  refine Finset.sum_congr rfl fun k _ => ?_
  have hk := ValueIdx.contrEquiv1_symm_val dot_S128x8192_S256x8192_S128x256_1_1_0_0_n_n 8192 rfl rfl k
  have el : dot_S128x8192_S256x8192_S128x256_1_1_0_0_n_n.lhsIdx (ix2 a r) ((ValueIdx.contrEquiv1 dot_S128x8192_S256x8192_S128x256_1_1_0_0_n_n 8192 rfl rfl).symm k) = ix2 a k := funext fun ax => Fin.ext (by
    match ax with
    | ⟨0, _⟩ => exact lhs_axis0 _ _
    | ⟨1, _⟩ => exact (lhs_axis1 _ _).trans hk)
  have er : dot_S128x8192_S256x8192_S128x256_1_1_0_0_n_n.rhsIdx (ix2 a r) ((ValueIdx.contrEquiv1 dot_S128x8192_S256x8192_S128x256_1_1_0_0_n_n 8192 rfl rfl).symm k) = ix2 r k := funext fun ax => Fin.ext (by
    match ax with
    | ⟨0, _⟩ => exact rhs_axis0 _ _
    | ⟨1, _⟩ => exact (rhs_axis1 _ _).trans hk)
  rw [el, er]

/-! ## The two stores -/

/-- The converted field matrix at an index is the field read as a signed integer. -/
theorem field_at (Qi : IVec S256x8192 32) (r : Fin 256) (k : Fin 8192) :
    (sitofp (F := Ideal) .bf16 Qi : FVec Ideal S256x8192 .bf16) (ix2 r k) = ((((Qi (ix2 r k)).toInt : ℝ)) : EReal) := rfl

/-- The first store (the low field). -/
theorem pay_low (v0 : Vec Ideal S256x8192 .i32) (v1 : Vec Ideal S128x8192 .bf16) (v3 : Vec Ideal S64x1 .f32)
    (v12 v14 v16 : Vec Ideal S1x256 .f32) (p : Fin 64) (r : Fin 256) :
    k0_pay4 (F := Ideal) v0 v1 v3 v12 v14 v16 (ix2 p r) = tileAt Cert.Spec.lowField v0 v1 v3 v12 v14 v16 p r := by
  unfold k0_pay4 k0_pay2 k0_pay3 tileAt
  simp only [addf_apply, mulf_apply, subf_apply]
  rw [row_bcast, row_bcast, row_bcast, col_bcast, upper_half, lower_half, matmul_at, matmul_at]
  simp only [shapeCast_self, field_at]
  rfl

/-- The high field as the body computes it (the vector unit's shift) is the spec's (the host's shift): an arithmetic
    shift right of a 32-bit word by four is the same word on every unit. -/
theorem high_at (v0 : Vec Ideal S256x8192 .i32) (r : Fin 256) (k : Fin 8192) :
    andi (shrsi v0 (broadcast S256x8192 4#32)) (broadcast S256x8192 15#32) (ix2 r k) = Cert.Spec.highField (v0 (ix2 r k)) := by
  show IntOp.andi (IntOp.shrsi .vector (v0 (ix2 r k)) 4#32) 15#32 = IntOp.andi (IntOp.shrsi .host (v0 (ix2 r k)) 4#32) 15#32
  rw [shrsi_unit .vector .host]

/-- The second store (the high field). -/
theorem pay_high (v0 : Vec Ideal S256x8192 .i32) (v1 : Vec Ideal S128x8192 .bf16) (v3 : Vec Ideal S64x1 .f32)
    (v36 v38 v40 : Vec Ideal S1x256 .f32) (p : Fin 64) (r : Fin 256) :
    k0_pay1 (F := Ideal) (k0_pay3 v3) (k0_pay5 v0 v1) v36 v38 v40 (ix2 p r)
      = tileAt Cert.Spec.highField v0 v1 v3 v36 v38 v40 p r := by
  unfold k0_pay1 k0_pay5 k0_pay2 k0_pay3 tileAt
  simp only [addf_apply, mulf_apply, subf_apply]
  rw [row_bcast, row_bcast, row_bcast, col_bcast, upper_half, lower_half, matmul_at, matmul_at]
  simp only [shapeCast_self, field_at, high_at]

end Cert.KernelIdeal.Body

end
-- ==== Proof.KernelBlocks.lean ====
/-
  From blocks to arrays. The launch walks 16 grid points; point `t` stages rows `256 t … 256 t + 255` of the packed
  weights, columns `256 t … 256 t + 255` of each per-channel row, the whole stacked activation and the whole column of
  row sums, and writes back columns `256 t … 256 t + 255` of each of the two `[64, 4096]` outputs. So each output
  array ends as ONE function of the arrays the launch found: at `(b, o)` the tile formula of KernelBody.lean with the
  block coordinates replaced by array coordinates.
-/
import proofs.«409068_j31748398252838_3_alg».proof.Proof.Gen.KernelIdeal.Frame
import proofs.«409068_j31748398252838_3_alg».proof.Proof.KernelBody
import Idealize.ShloMosaic.Lib.Pipeline.Value

noncomputable section

namespace Cert.KernelIdeal.Blocks

open Cert.KernelIdeal Cert.KernelIdeal.Gen Cert.KernelIdeal.Body Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- One half of the output at `(b, o)`, `o` a column of the half: the tile formula over whole arrays. -/
def halfAt (f : BitVec 32 → BitVec 32) (W : S4096x8192.Idx → BitVec 32) (XS : S128x8192.Idx → EReal) (S : S64x1.Idx → EReal)
    (D Z BI : S1x4096.Idx → EReal) (b : Fin 64) (o : Fin 4096) : EReal :=
  D (ix2 (0 : Fin 1) o)
      * ((∑ k : Fin 8192, XS (ix2 (⟨b.val, by omega⟩ : Fin 128) k) * (((f (W (ix2 o k))).toInt : ℝ) : EReal)
          + ∑ k : Fin 8192, XS (ix2 (⟨64 + b.val, by omega⟩ : Fin 128) k) * (((f (W (ix2 o k))).toInt : ℝ) : EReal))
        - Z (ix2 (0 : Fin 1) o) * S (ix2 b (0 : Fin 1)))
    + BI (ix2 (0 : Fin 1) o)

/-- A tile whose blocks are the restrictions of whole arrays to block `n` is the half-array formula at the shifted column. -/
theorem tile_eq_half (f : BitVec 32 → BitVec 32) (x0 : S256x8192.Idx → BitVec 32) (x7 : S128x8192.Idx → EReal) (x8 : S64x1.Idx → EReal)
    (x1 x3 x5 : S1x256.Idx → EReal) (W : S4096x8192.Idx → BitVec 32) (XS : S128x8192.Idx → EReal) (S : S64x1.Idx → EReal)
    (D Z BI : S1x4096.Idx → EReal) (n : Nat) (hn : n < 16)
    (h0 : ∀ (r : Fin 256) (k : Fin 8192), x0 (ix2 r k) = W (ix2 (⟨n * 256 + r.val, by omega⟩ : Fin 4096) k))
    (h7 : ∀ (a : Fin 128) (k : Fin 8192), x7 (ix2 a k) = XS (ix2 a k))
    (h8 : ∀ p : Fin 64, x8 (ix2 p (0 : Fin 1)) = S (ix2 p (0 : Fin 1)))
    (h1 : ∀ r : Fin 256, x1 (ix2 (0 : Fin 1) r) = D (ix2 (0 : Fin 1) (⟨n * 256 + r.val, by omega⟩ : Fin 4096)))
    (h3 : ∀ r : Fin 256, x3 (ix2 (0 : Fin 1) r) = Z (ix2 (0 : Fin 1) (⟨n * 256 + r.val, by omega⟩ : Fin 4096)))
    (h5 : ∀ r : Fin 256, x5 (ix2 (0 : Fin 1) r) = BI (ix2 (0 : Fin 1) (⟨n * 256 + r.val, by omega⟩ : Fin 4096)))
    (p : Fin 64) (r : Fin 256) :
    tileAt f x0 x7 x8 x1 x3 x5 p r = halfAt f W XS S D Z BI p (⟨n * 256 + r.val, by omega⟩ : Fin 4096) := by
  unfold tileAt halfAt
  simp only [h0, h7, h8, h1, h3, h5]

/-! ## The printed index maps, decided over the grid -/

theorem idx_w : ∀ t : Fin cfg0.N, win0_0.index t (0 : Fin 2) = t.val ∧ win0_0.index t (1 : Fin 2) = 0 :=
  (by decide +kernel : ∀ t : Fin grid0.N, _)
theorem idx_rows : ∀ t : Fin cfg0.N,
    (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = t.val)
    ∧ (win0_4.index t (0 : Fin 2) = 0 ∧ win0_4.index t (1 : Fin 2) = t.val)
    ∧ (win0_5.index t (0 : Fin 2) = 0 ∧ win0_5.index t (1 : Fin 2) = t.val)
    ∧ (win0_6.index t (0 : Fin 2) = 0 ∧ win0_6.index t (1 : Fin 2) = t.val) :=
  (by decide +kernel : ∀ t : Fin grid0.N, _)
theorem idx_whole : ∀ t : Fin cfg0.N,
    (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)
theorem idx_out : ∀ t : Fin cfg0.N,
    (win0_9.index t (0 : Fin 2) = 0 ∧ win0_9.index t (1 : Fin 2) = t.val)
    ∧ (win0_10.index t (0 : Fin 2) = 0 ∧ win0_10.index t (1 : Fin 2) = t.val) :=
  (by decide +kernel : ∀ t : Fin grid0.N, _)

theorem lt16 (t : Fin cfg0.N) : t.val < 16 := by have := t.isLt; have hN : cfg0.N = 16 := N_0; omega

/-! ## Each input window's block at a point, as a read of its array -/

/-- The packed-weight block at point `t` is rows `256 t + r` of the packed weights. -/
theorem blk_w (c : Dev nD) (t : Fin cfg0.N) (r : Fin 256) (k : Fin 8192) :
    (iblk m c 0 t : Vec Ideal S256x8192 .i32) (ix2 r k)
      = (V m c main_arg1 : S4096x8192.Idx → BitVec 32) (ix2 (⟨t.val * 256 + r.val, by have := lt16 t; omega⟩ : Fin 4096) k) := by
  obtain ⟨e0, e1⟩ := idx_w t
  unfold iblk
  rw [View.read_apply]
  show V m c main_arg1 _ = V m c main_arg1 _
  congr 1
  funext a
  apply Fin.ext
  match a with
  | ⟨0, _⟩ => show win0_0.index t (0 : Fin 2) * 256 + 1 * r.val = t.val * 256 + r.val; rw [e0]; omega
  | ⟨1, _⟩ => show win0_0.index t (1 : Fin 2) * 8192 + 1 * k.val = k.val; rw [e1]; omega

/-- Each per-channel row's block at point `t` is columns `256 t + r` of the row. -/
theorem blk_row1 (c : Dev nD) (t : Fin cfg0.N) (r : Fin 256) :
    (iblk m c 1 t : Vec Ideal S1x256 .f32) (ix2 (0 : Fin 1) r)
      = (V m c main_v8 : S1x4096.Idx → EReal) (ix2 (0 : Fin 1) (⟨t.val * 256 + r.val, by have := lt16 t; omega⟩ : Fin 4096)) := by
  obtain ⟨e0, e1⟩ := (idx_rows t).1
  unfold iblk
  rw [View.read_apply]
  show V m c main_v8 _ = V m c main_v8 _
  congr 1
  funext a
  apply Fin.ext
  match a with
  | ⟨0, _⟩ => show win0_1.index t (0 : Fin 2) * 1 + 1 * 0 = 0; rw [e0]
  | ⟨1, _⟩ => show win0_1.index t (1 : Fin 2) * 256 + 1 * r.val = t.val * 256 + r.val; rw [e1]; omega

theorem blk_row2 (c : Dev nD) (t : Fin cfg0.N) (r : Fin 256) :
    (iblk m c 2 t : Vec Ideal S1x256 .f32) (ix2 (0 : Fin 1) r)
      = (V m c main_v10 : S1x4096.Idx → EReal) (ix2 (0 : Fin 1) (⟨t.val * 256 + r.val, by have := lt16 t; omega⟩ : Fin 4096)) := by
  obtain ⟨e0, e1⟩ := (idx_rows t).2.1
  unfold iblk
  rw [View.read_apply]
  show V m c main_v10 _ = V m c main_v10 _
  congr 1
  funext a
  apply Fin.ext
  match a with
  | ⟨0, _⟩ => show win0_2.index t (0 : Fin 2) * 1 + 1 * 0 = 0; rw [e0]
  | ⟨1, _⟩ => show win0_2.index t (1 : Fin 2) * 256 + 1 * r.val = t.val * 256 + r.val; rw [e1]; omega

theorem blk_row3 (c : Dev nD) (t : Fin cfg0.N) (r : Fin 256) :
    (iblk m c 3 t : Vec Ideal S1x256 .f32) (ix2 (0 : Fin 1) r)
      = (V m c main_v12 : S1x4096.Idx → EReal) (ix2 (0 : Fin 1) (⟨t.val * 256 + r.val, by have := lt16 t; omega⟩ : Fin 4096)) := by
  obtain ⟨e0, e1⟩ := (idx_rows t).2.2.1
  unfold iblk
  rw [View.read_apply]
  show V m c main_v12 _ = V m c main_v12 _
  congr 1
  funext a
  apply Fin.ext
  match a with
  | ⟨0, _⟩ => show win0_3.index t (0 : Fin 2) * 1 + 1 * 0 = 0; rw [e0]
  | ⟨1, _⟩ => show win0_3.index t (1 : Fin 2) * 256 + 1 * r.val = t.val * 256 + r.val; rw [e1]; omega

theorem blk_row4 (c : Dev nD) (t : Fin cfg0.N) (r : Fin 256) :
    (iblk m c 4 t : Vec Ideal S1x256 .f32) (ix2 (0 : Fin 1) r)
      = (V m c main_v14 : S1x4096.Idx → EReal) (ix2 (0 : Fin 1) (⟨t.val * 256 + r.val, by have := lt16 t; omega⟩ : Fin 4096)) := by
  obtain ⟨e0, e1⟩ := (idx_rows t).2.2.2.1
  unfold iblk
  rw [View.read_apply]
  show V m c main_v14 _ = V m c main_v14 _
  congr 1
  funext a
  apply Fin.ext
  match a with
  | ⟨0, _⟩ => show win0_4.index t (0 : Fin 2) * 1 + 1 * 0 = 0; rw [e0]
  | ⟨1, _⟩ => show win0_4.index t (1 : Fin 2) * 256 + 1 * r.val = t.val * 256 + r.val; rw [e1]; omega

theorem blk_row5 (c : Dev nD) (t : Fin cfg0.N) (r : Fin 256) :
    (iblk m c 5 t : Vec Ideal S1x256 .f32) (ix2 (0 : Fin 1) r)
      = (V m c main_v16 : S1x4096.Idx → EReal) (ix2 (0 : Fin 1) (⟨t.val * 256 + r.val, by have := lt16 t; omega⟩ : Fin 4096)) := by
  obtain ⟨e0, e1⟩ := (idx_rows t).2.2.2.2.1
  unfold iblk
  rw [View.read_apply]
  show V m c main_v16 _ = V m c main_v16 _
  congr 1
  funext a
  apply Fin.ext
  match a with
  | ⟨0, _⟩ => show win0_5.index t (0 : Fin 2) * 1 + 1 * 0 = 0; rw [e0]
  | ⟨1, _⟩ => show win0_5.index t (1 : Fin 2) * 256 + 1 * r.val = t.val * 256 + r.val; rw [e1]; omega

theorem blk_row6 (c : Dev nD) (t : Fin cfg0.N) (r : Fin 256) :
    (iblk m c 6 t : Vec Ideal S1x256 .f32) (ix2 (0 : Fin 1) r)
      = (V m c main_v18 : S1x4096.Idx → EReal) (ix2 (0 : Fin 1) (⟨t.val * 256 + r.val, by have := lt16 t; omega⟩ : Fin 4096)) := by
  obtain ⟨e0, e1⟩ := (idx_rows t).2.2.2.2.2
  unfold iblk
  rw [View.read_apply]
  show V m c main_v18 _ = V m c main_v18 _
  congr 1
  funext a
  apply Fin.ext
  match a with
  | ⟨0, _⟩ => show win0_6.index t (0 : Fin 2) * 1 + 1 * 0 = 0; rw [e0]
  | ⟨1, _⟩ => show win0_6.index t (1 : Fin 2) * 256 + 1 * r.val = t.val * 256 + r.val; rw [e1]; omega

/-- The stacked activation is staged whole at every point. -/
theorem blk_xs (c : Dev nD) (t : Fin cfg0.N) (a : Fin 128) (k : Fin 8192) :
    (iblk m c 7 t : Vec Ideal S128x8192 .bf16) (ix2 a k) = (V m c main_v4 : S128x8192.Idx → EReal) (ix2 a k) := by
  obtain ⟨e0, e1⟩ := (idx_whole t).1
  unfold iblk
  rw [View.read_apply]
  show V m c main_v4 _ = V m c main_v4 _
  congr 1
  funext ax
  apply Fin.ext
  match ax with
  | ⟨0, _⟩ => show win0_7.index t (0 : Fin 2) * 128 + 1 * a.val = a.val; rw [e0]; omega
  | ⟨1, _⟩ => show win0_7.index t (1 : Fin 2) * 8192 + 1 * k.val = k.val; rw [e1]; omega

/-- So is the column of row sums. -/
theorem blk_s (c : Dev nD) (t : Fin cfg0.N) (p : Fin 64) :
    (iblk m c 8 t : Vec Ideal S64x1 .f32) (ix2 p (0 : Fin 1)) = (V m c main_v6 : S64x1.Idx → EReal) (ix2 p (0 : Fin 1)) := by
  obtain ⟨e0, e1⟩ := (idx_whole t).2
  unfold iblk
  rw [View.read_apply]
  show V m c main_v6 _ = V m c main_v6 _
  congr 1
  funext ax
  apply Fin.ext
  match ax with
  | ⟨0, _⟩ => show win0_8.index t (0 : Fin 2) * 64 + 1 * p.val = p.val; rw [e0]; omega
  | ⟨1, _⟩ => show win0_8.index t (1 : Fin 2) * 1 + 1 * 0 = 0; rw [e1]

/-! ## The two output arrays -/

theorem hz : (![0, 0] : Fin 2 → Nat) = fun _ => 0 := funext fun a => by fin_cases a <;> rfl

/-- The first output array, `[64, 4096]`: the low-field half, from the arrays the launch finds. -/
def lowHalf (c : Dev nD) : S64x4096.Idx → EReal := fun i =>
  halfAt Cert.Spec.lowField (V m c main_arg1) (V m c main_v4) (V m c main_v6) (V m c main_v8) (V m c main_v12) (V m c main_v16) (i 0) (i 1)

/-- The second: the high-field half. -/
def highHalf (c : Dev nD) : S64x4096.Idx → EReal := fun i =>
  halfAt Cert.Spec.highField (V m c main_arg1) (V m c main_v4) (V m c main_v6) (V m c main_v10) (V m c main_v14) (V m c main_v18) (i 0) (i 1)

/-- What point `t` writes back to the first output is block `t` of `lowHalf`. -/
theorem flushed9_eq (c : Dev nD) (t : Fin cfg0.N) :
    (dats m 0 c).flushed 9 t = ((cfg0.win 9).blk t).view.read (Elt Ideal) (lowHalf m c) := by
  obtain ⟨e0, e1⟩ := (idx_out t).1
  show (cfg0.win 9).cut (grid0.coords t) ((dats m 0 c).after 9 t) = _
  rw [after0_9]
  unfold out0_9
  rw [View.canon_unit_zero hz]
  simp only [View.ld_unit_zero (S := S256x8192) hz, View.ld_unit_zero (S := S128x8192) hz, View.ld_unit_zero (S := S64x1) hz, View.ld_unit_zero (S := S1x256) hz]
  funext j
  have hp : (j 0).val < 64 := (j 0).isLt
  have hr : (j 1).val < 256 := (j 1).isLt
  have hj : j = ix2 (⟨(j 0).val, hp⟩ : Fin 64) (⟨(j 1).val, hr⟩ : Fin 256) := funext fun a => by
    match a with
    | ⟨0, _⟩ => rfl
    | ⟨1, _⟩ => rfl
  rw [View.read_apply]
  show k0_pay4 (F := Ideal) (iblk m c 0 t) (iblk m c 7 t) (iblk m c 8 t) (iblk m c 1 t) (iblk m c 3 t) (iblk m c 5 t) j
      = lowHalf m c (((cfg0.win 9).blk t).view.emb j)
  have key := (pay_low (iblk m c 0 t) (iblk m c 7 t) (iblk m c 8 t) (iblk m c 1 t) (iblk m c 3 t) (iblk m c 5 t) ⟨(j 0).val, hp⟩ ⟨(j 1).val, hr⟩).trans
    (tile_eq_half Cert.Spec.lowField (iblk m c 0 t) (iblk m c 7 t) (iblk m c 8 t) (iblk m c 1 t) (iblk m c 3 t) (iblk m c 5 t)
      (V m c main_arg1) (V m c main_v4) (V m c main_v6) (V m c main_v8) (V m c main_v12) (V m c main_v16) t.val (lt16 t)
      (blk_w m c t) (blk_xs m c t) (blk_s m c t) (blk_row1 m c t) (blk_row3 m c t) (blk_row5 m c t) ⟨(j 0).val, hp⟩ ⟨(j 1).val, hr⟩)
  refine ((congrArg (k0_pay4 (F := Ideal) (iblk m c 0 t) (iblk m c 7 t) (iblk m c 8 t) (iblk m c 1 t) (iblk m c 3 t) (iblk m c 5 t)) hj).trans key).trans ?_
  unfold lowHalf
  refine congrArg₂ (halfAt Cert.Spec.lowField (V m c main_arg1) (V m c main_v4) (V m c main_v6) (V m c main_v8) (V m c main_v12) (V m c main_v16)) ?_ ?_
  · apply Fin.ext
    show (j 0).val = win0_9.index t (0 : Fin 2) * 64 + 1 * (j 0).val
    rw [e0]; omega
  · apply Fin.ext
    show t.val * 256 + (j 1).val = win0_9.index t (1 : Fin 2) * 256 + 1 * (j 1).val
    rw [e1]; omega

/-- What point `t` writes back to the second output is block `t` of `highHalf`. -/
theorem flushed10_eq (c : Dev nD) (t : Fin cfg0.N) :
    (dats m 0 c).flushed 10 t = ((cfg0.win 10).blk t).view.read (Elt Ideal) (highHalf m c) := by
  obtain ⟨e0, e1⟩ := (idx_out t).2
  show (cfg0.win 10).cut (grid0.coords t) ((dats m 0 c).after 10 t) = _
  rw [after0_10]
  unfold out0_10
  rw [View.canon_unit_zero hz]
  simp only [View.ld_unit_zero (S := S256x8192) hz, View.ld_unit_zero (S := S128x8192) hz, View.ld_unit_zero (S := S64x1) hz, View.ld_unit_zero (S := S1x256) hz]
  funext j
  have hp : (j 0).val < 64 := (j 0).isLt
  have hr : (j 1).val < 256 := (j 1).isLt
  have hj : j = ix2 (⟨(j 0).val, hp⟩ : Fin 64) (⟨(j 1).val, hr⟩ : Fin 256) := funext fun a => by
    match a with
    | ⟨0, _⟩ => rfl
    | ⟨1, _⟩ => rfl
  rw [View.read_apply]
  show k0_pay1 (F := Ideal) (k0_pay3 (iblk m c 8 t)) (k0_pay5 (iblk m c 0 t) (iblk m c 7 t)) (iblk m c 2 t) (iblk m c 4 t) (iblk m c 6 t) j
      = highHalf m c (((cfg0.win 10).blk t).view.emb j)
  have key := (pay_high (iblk m c 0 t) (iblk m c 7 t) (iblk m c 8 t) (iblk m c 2 t) (iblk m c 4 t) (iblk m c 6 t) ⟨(j 0).val, hp⟩ ⟨(j 1).val, hr⟩).trans
    (tile_eq_half Cert.Spec.highField (iblk m c 0 t) (iblk m c 7 t) (iblk m c 8 t) (iblk m c 2 t) (iblk m c 4 t) (iblk m c 6 t)
      (V m c main_arg1) (V m c main_v4) (V m c main_v6) (V m c main_v10) (V m c main_v14) (V m c main_v18) t.val (lt16 t)
      (blk_w m c t) (blk_xs m c t) (blk_s m c t) (blk_row2 m c t) (blk_row4 m c t) (blk_row6 m c t) ⟨(j 0).val, hp⟩ ⟨(j 1).val, hr⟩)
  refine ((congrArg (k0_pay1 (F := Ideal) (k0_pay3 (iblk m c 8 t)) (k0_pay5 (iblk m c 0 t) (iblk m c 7 t)) (iblk m c 2 t) (iblk m c 4 t) (iblk m c 6 t)) hj).trans key).trans ?_
  unfold highHalf
  refine congrArg₂ (halfAt Cert.Spec.highField (V m c main_arg1) (V m c main_v4) (V m c main_v6) (V m c main_v10) (V m c main_v14) (V m c main_v18)) ?_ ?_
  · apply Fin.ext
    show (j 0).val = win0_10.index t (0 : Fin 2) * 64 + 1 * (j 0).val
    rw [e0]; omega
  · apply Fin.ext
    show t.val * 256 + (j 1).val = win0_10.index t (1 : Fin 2) * 256 + 1 * (j 1).val
    rw [e1]; omega

/-! ## The blocks tile each output -/

/-- An index of the first output is in point `t`'s block iff each coordinate is in the block's range on its axis. -/
theorem mem_blk9 (t : Fin cfg0.N) (i : S64x4096.Idx) :
    i ∈ ((cfg0.win 9).blk t).view.set ↔ ∀ a : Fin 2, win0_9.index t a * S64x256.size a ≤ (i a).val ∧ (i a).val < win0_9.index t a * S64x256.size a + S64x256.size a := by
  show i ∈ ((View.whole main_v19_0).slice (win0_9.rect t)).set ↔ _
  rw [View.set_slice_whole, Rect.mem_set_unit]
  exact Iff.rfl

theorem mem_blk10 (t : Fin cfg0.N) (i : S64x4096.Idx) :
    i ∈ ((cfg0.win 10).blk t).view.set ↔ ∀ a : Fin 2, win0_10.index t a * S64x256.size a ≤ (i a).val ∧ (i a).val < win0_10.index t a * S64x256.size a + S64x256.size a := by
  show i ∈ ((View.whole main_v19_1).slice (win0_10.rect t)).set ↔ _
  rw [View.set_slice_whole, Rect.mem_set_unit]
  exact Iff.rfl

/-- Column `o` of the first output is written back by point `o / 256`. -/
theorem cover9 (i : S64x4096.Idx) : ∃ t : Fin cfg0.N, (cfg0.win 9).flush t = true ∧ i ∈ ((cfg0.win 9).blk t).view.set := by
  have hi0 : (i 0).val < 64 := (i 0).isLt
  have hi1 : (i 1).val < 4096 := (i 1).isLt
  have hN : cfg0.N = 16 := N_0
  have hq : (i 1).val / 256 < cfg0.N := by omega
  obtain ⟨e0, e1⟩ := (idx_out ⟨(i 1).val / 256, hq⟩).1
  refine ⟨⟨(i 1).val / 256, hq⟩, flush0_9 _, ?_⟩
  rw [mem_blk9]
  intro a
  match a with
  | ⟨0, _⟩ =>
    show win0_9.index ⟨(i 1).val / 256, hq⟩ (0 : Fin 2) * 64 ≤ (i 0).val ∧ (i 0).val < win0_9.index ⟨(i 1).val / 256, hq⟩ (0 : Fin 2) * 64 + 64
    rw [e0]; omega
  | ⟨1, _⟩ =>
    show win0_9.index ⟨(i 1).val / 256, hq⟩ (1 : Fin 2) * 256 ≤ (i 1).val ∧ (i 1).val < win0_9.index ⟨(i 1).val / 256, hq⟩ (1 : Fin 2) * 256 + 256
    rw [e1]
    show (i 1).val / 256 * 256 ≤ (i 1).val ∧ (i 1).val < (i 1).val / 256 * 256 + 256
    omega

theorem cover10 (i : S64x4096.Idx) : ∃ t : Fin cfg0.N, (cfg0.win 10).flush t = true ∧ i ∈ ((cfg0.win 10).blk t).view.set := by
  have hi0 : (i 0).val < 64 := (i 0).isLt
  have hi1 : (i 1).val < 4096 := (i 1).isLt
  have hN : cfg0.N = 16 := N_0
  have hq : (i 1).val / 256 < cfg0.N := by omega
  obtain ⟨e0, e1⟩ := (idx_out ⟨(i 1).val / 256, hq⟩).2
  refine ⟨⟨(i 1).val / 256, hq⟩, flush0_10 _, ?_⟩
  rw [mem_blk10]
  intro a
  match a with
  | ⟨0, _⟩ =>
    show win0_10.index ⟨(i 1).val / 256, hq⟩ (0 : Fin 2) * 64 ≤ (i 0).val ∧ (i 0).val < win0_10.index ⟨(i 1).val / 256, hq⟩ (0 : Fin 2) * 64 + 64
    rw [e0]; omega
  | ⟨1, _⟩ =>
    show win0_10.index ⟨(i 1).val / 256, hq⟩ (1 : Fin 2) * 256 ≤ (i 1).val ∧ (i 1).val < win0_10.index ⟨(i 1).val / 256, hq⟩ (1 : Fin 2) * 256 + 256
    rw [e1]
    show (i 1).val / 256 * 256 ≤ (i 1).val ∧ (i 1).val < (i 1).val / 256 * 256 + 256
    omega

/-- The first output array after the launch. -/
theorem final9 (c : Dev nD) : (dats m 0 c).arrAt 9 cfg0.N = lowHalf m c :=
  (dats m 0 c).arrAt_eq_of_cover 9 (lowHalf m c) (fun t _ => flushed9_eq m c t) cover9

/-- The second. -/
theorem final10 (c : Dev nD) : (dats m 0 c).arrAt 10 cfg0.N = highHalf m c :=
  (dats m 0 c).arrAt_eq_of_cover 10 (highHalf m c) (fun t _ => flushed10_eq m c t) cover10

end Cert.KernelIdeal.Blocks

end
-- ==== Proof.HostArrays.lean ====
/-
  What the kernel program's host operations BEFORE the launch leave in the arrays the launch stages, read at an index,
  in terms of the program's arguments: the stacked activation (the input over the input minus itself), the row sums as
  a column, and the two halves of each per-channel vector as rows.
-/
import proofs.«409068_j31748398252838_3_alg».proof.Proof.Gen.KernelIdeal.Frame
import proofs.«409068_j31748398252838_3_alg».proof.Proof.Spec
import Idealize.ShloMosaic.Lib.Pipeline.Value
import Idealize.ShloMosaic.Lib.ValueLayout
import Idealize.ShloMosaic.Lib.StableHlo.Run
import Idealize.ShloMosaic.PureOps.Ideal.Laws

noncomputable section

namespace Cert.KernelIdeal.HostArrays

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The program's arguments on core `c`, as launched. -/
abbrev xArg (c : Dev nD) : S64x8192.Idx → EReal := m ((c : Thread nD τ).loc main_arg0)
abbrev wArg (c : Dev nD) : S4096x8192.Idx → BitVec 32 := m ((c : Thread nD τ).loc main_arg1)
abbrev dArg (c : Dev nD) : S8192.Idx → EReal := m ((c : Thread nD τ).loc main_arg2)
abbrev zArg (c : Dev nD) : S8192.Idx → EReal := m ((c : Thread nD τ).loc main_arg3)
abbrev bArg (c : Dev nD) : S8192.Idx → EReal := m ((c : Thread nD τ).loc main_arg4)

/-! ## The arrays as terms of the arguments -/

/-- The stacked activation: the input over the input minus itself (each format change in between written out). -/
private theorem stack_eq (c : Dev nD) :
    (V m c main_v4 : S128x8192.Idx → EReal)
      = concatenate S128x8192 0
          [⟨S64x8192, (truncf .bf16 (xArg m c : FVec Ideal S64x8192 .f32) bitsLt_bf16_f32 : FVec Ideal S64x8192 .bf16)⟩,
           ⟨S64x8192, (truncf .bf16
              (subf (xArg m c : FVec Ideal S64x8192 .f32)
                (extf .f32 (truncf .bf16 (xArg m c : FVec Ideal S64x8192 .f32) bitsLt_bf16_f32 : FVec Ideal S64x8192 .bf16)
                  bitsLt_bf16_f32 : FVec Ideal S64x8192 .f32))
              bitsLt_bf16_f32 : FVec Ideal S64x8192 .bf16)⟩]
          concatenates_S64x8192_S64x8192_S128x8192_d0 := by
  show StableHlo.after hostOps0 (fun b => m (c, b)) (Proc.devRef .tc main_v4) = _
  after_results

/-- The row sums as a column: the sum over axis 1 from a zero initial value, broadcast along a new unit axis. -/
private theorem rowsum_eq (c : Dev nD) :
    (V m c main_v6 : S64x1.Idx → EReal)
      = broadcastInDim S64x1 ![0] bcast_S64_S64x1_0
          (Host.reduceAdd (xArg m c : FVec Ideal S64x8192 .f32)
            (constant (F := Ideal) S_ .f32 0x00000000#32) reducesTo_S64x8192_S64_d1 h_S_ : FVec Ideal S64 .f32) := by
  show StableHlo.after hostOps0 (fun b => m (c, b)) (Proc.devRef .tc main_v6) = _
  after_results

/-- The six per-channel rows: a half of a per-channel vector, as a one-row matrix. -/
private theorem delta_lo_eq (c : Dev nD) :
    (V m c main_v8 : S1x4096.Idx → EReal)
      = shapeCast S1x4096 (extractStridedSlice S4096 ![0] (dArg m c) slices_S8192_S4096_0) shapeCasts_S4096_S1x4096 := by
  show StableHlo.after hostOps0 (fun b => m (c, b)) (Proc.devRef .tc main_v8) = _
  after_results
  rfl

private theorem delta_hi_eq (c : Dev nD) :
    (V m c main_v10 : S1x4096.Idx → EReal)
      = shapeCast S1x4096 (extractStridedSlice S4096 ![4096] (dArg m c) slices_S8192_S4096_4096) shapeCasts_S4096_S1x4096 := by
  show StableHlo.after hostOps0 (fun b => m (c, b)) (Proc.devRef .tc main_v10) = _
  after_results
  rfl

private theorem zp_lo_eq (c : Dev nD) :
    (V m c main_v12 : S1x4096.Idx → EReal)
      = shapeCast S1x4096 (extractStridedSlice S4096 ![0] (zArg m c) slices_S8192_S4096_0) shapeCasts_S4096_S1x4096 := by
  show StableHlo.after hostOps0 (fun b => m (c, b)) (Proc.devRef .tc main_v12) = _
  after_results
  rfl

private theorem zp_hi_eq (c : Dev nD) :
    (V m c main_v14 : S1x4096.Idx → EReal)
      = shapeCast S1x4096 (extractStridedSlice S4096 ![4096] (zArg m c) slices_S8192_S4096_4096) shapeCasts_S4096_S1x4096 := by
  show StableHlo.after hostOps0 (fun b => m (c, b)) (Proc.devRef .tc main_v14) = _
  after_results
  rfl

private theorem bias_lo_eq (c : Dev nD) :
    (V m c main_v16 : S1x4096.Idx → EReal)
      = shapeCast S1x4096 (extractStridedSlice S4096 ![0] (bArg m c) slices_S8192_S4096_0) shapeCasts_S4096_S1x4096 := by
  show StableHlo.after hostOps0 (fun b => m (c, b)) (Proc.devRef .tc main_v16) = _
  after_results
  rfl

private theorem bias_hi_eq (c : Dev nD) :
    (V m c main_v18 : S1x4096.Idx → EReal)
      = shapeCast S1x4096 (extractStridedSlice S4096 ![4096] (bArg m c) slices_S8192_S4096_4096) shapeCasts_S4096_S1x4096 := by
  show StableHlo.after hostOps0 (fun b => m (c, b)) (Proc.devRef .tc main_v18) = _
  after_results
  rfl

/-! ## Reading them at an index -/

/-- The 4096 entries of a vector of 8192 from offset `off` on, as a one-row matrix, read at column `o`: the vector at
    `off + o`. -/
private theorem slice_row_read (x : S8192.Idx → EReal) (off : Nat) (h : S8192.Slices ![off] S4096)
    (hc : S4096.ShapeCasts S1x4096) (o : Fin 4096) (ho : off + o.val < 8192) :
    shapeCast S1x4096 (extractStridedSlice S4096 ![off] x h) hc (ix2 (0 : Fin 1) o)
      = x (ix1 (⟨off + o.val, ho⟩ : Fin 8192)) := by
  refine (shapeCast_a_1a_apply _ hc (0 : Fin 1) o).trans ?_
  refine extractStridedSlice_apply ![off] x h (ix1 o) (ix1 (⟨off + o.val, ho⟩ : Fin 8192)) fun a => ?_
  match a with
  | ⟨0, _⟩ => rfl

/-- The same from offset zero: the vector at `o`. -/
private theorem slice_row_read_zero (x : S8192.Idx → EReal) (h : S8192.Slices ![0] S4096)
    (hc : S4096.ShapeCasts S1x4096) (o : Fin 4096) (ho : o.val < 8192) :
    shapeCast S1x4096 (extractStridedSlice S4096 ![0] x h) hc (ix2 (0 : Fin 1) o)
      = x (ix1 (⟨o.val, ho⟩ : Fin 8192)) :=
  (slice_row_read x 0 h hc o (by omega)).trans (congrArg x (congrArg ix1 (Fin.ext (Nat.zero_add _))))

theorem xstack_hi (c : Dev nD) (b : Fin 64) (k : Fin 8192) :
    (V m c main_v4 : S128x8192.Idx → EReal) (ix2 (⟨b.val, by omega⟩ : Fin 128) k) = xArg m c (ix2 b k) := by
  rw [stack_eq]
  refine (concatenate_pair_apply_left _ _ _ concatenates_S64x8192_S64x8192_S128x8192_d0
    (ix2 (⟨b.val, by omega⟩ : Fin 128) k) rfl (ix2 b k) fun a => ?_).trans rfl
  match a with
  | ⟨0, _⟩ => rfl
  | ⟨1, _⟩ => rfl

theorem xstack_lo (c : Dev nD) (b : Fin 64) (k : Fin 8192) :
    (V m c main_v4 : S128x8192.Idx → EReal) (ix2 (⟨64 + b.val, by omega⟩ : Fin 128) k)
      = xArg m c (ix2 b k) - xArg m c (ix2 b k) := by
  rw [stack_eq]
  refine (concatenate_pair_apply_right _ _ _ concatenates_S64x8192_S64x8192_S128x8192_d0
    (ix2 (⟨64 + b.val, by omega⟩ : Fin 128) k) rfl rfl (ix2 b k) (fun a ha => ?_) ?_).trans rfl
  · match a, ha with
    | ⟨0, _⟩, ha => exact absurd rfl ha
    | ⟨1, _⟩, _ => rfl
  · show b.val + 64 = 64 + b.val
    omega

theorem rowsum (c : Dev nD) (b : Fin 64) :
    (V m c main_v6 : S64x1.Idx → EReal) (ix2 b (0 : Fin 1)) = ∑ k : Fin 8192, xArg m c (ix2 b k) := by
  rw [rowsum_eq]
  have h : S64x8192.Reduces [1] S64 := by decide
  refine (broadcastInDim_apply ![0] bcast_S64_S64x1_0 _ (ix2 b (0 : Fin 1)) (ix1 b) fun a => ?_).trans ?_
  · match a with
    | ⟨0, _⟩ =>
      show b.val = if (64 : ℕ) = 1 then 0 else b.val
      rw [if_neg (by omega)]
  · refine (Ideal.hostReduceAdd_single reducesTo_S64x8192_S64_d1 h (xArg m c) _ (ix1 b)).trans ?_
    have h0 : (constant (F := Ideal) S_ .f32 0x00000000#32) (Shape.Idx.first h_S_) = (0 : EReal) :=
      Ideal.ofBits_zero_f32
    rw [h0, zero_add]
    refine Finset.sum_congr rfl fun k _ => congrArg (xArg m c) ?_
    funext a
    match a with
    | ⟨0, _⟩ => exact Fin.ext rfl
    | ⟨1, _⟩ => exact Fin.ext rfl

theorem delta_lo (c : Dev nD) (o : Fin 4096) :
    (V m c main_v8 : S1x4096.Idx → EReal) (ix2 (0 : Fin 1) o) = dArg m c (ix1 (⟨o.val, by omega⟩ : Fin 8192)) := by
  rw [delta_lo_eq]; exact slice_row_read_zero _ _ _ o _

theorem delta_hi (c : Dev nD) (o : Fin 4096) :
    (V m c main_v10 : S1x4096.Idx → EReal) (ix2 (0 : Fin 1) o) = dArg m c (ix1 (⟨4096 + o.val, by omega⟩ : Fin 8192)) := by
  rw [delta_hi_eq]; exact slice_row_read _ 4096 _ _ o _

theorem zp_lo (c : Dev nD) (o : Fin 4096) :
    (V m c main_v12 : S1x4096.Idx → EReal) (ix2 (0 : Fin 1) o) = zArg m c (ix1 (⟨o.val, by omega⟩ : Fin 8192)) := by
  rw [zp_lo_eq]; exact slice_row_read_zero _ _ _ o _

theorem zp_hi (c : Dev nD) (o : Fin 4096) :
    (V m c main_v14 : S1x4096.Idx → EReal) (ix2 (0 : Fin 1) o) = zArg m c (ix1 (⟨4096 + o.val, by omega⟩ : Fin 8192)) := by
  rw [zp_hi_eq]; exact slice_row_read _ 4096 _ _ o _

theorem bias_lo (c : Dev nD) (o : Fin 4096) :
    (V m c main_v16 : S1x4096.Idx → EReal) (ix2 (0 : Fin 1) o) = bArg m c (ix1 (⟨o.val, by omega⟩ : Fin 8192)) := by
  rw [bias_lo_eq]; exact slice_row_read_zero _ _ _ o _

theorem bias_hi (c : Dev nD) (o : Fin 4096) :
    (V m c main_v18 : S1x4096.Idx → EReal) (ix2 (0 : Fin 1) o) = bArg m c (ix1 (⟨4096 + o.val, by omega⟩ : Fin 8192)) := by
  rw [bias_hi_eq]; exact slice_row_read _ 4096 _ _ o _

end Cert.KernelIdeal.HostArrays

end
-- ==== Proof.KernelRun.lean ====
/-
  The kernel program's run, read: after the launch the two `[64, 4096]` output arrays are the two halves of
  KernelBlocks.lean; the one host operation after the launch joins them along the channel axis; and at `(b, o)` the
  joined array is Spec.lean's `kOutAt` of the program's arguments — the arrays the launch found are the arguments
  themselves (the packed weights), their halves (scale, zero point, bias), the stacked activation and the row sums
  (HostArrays.lean).
-/
import proofs.«409068_j31748398252838_3_alg».proof.Proof.Gen.KernelIdeal.Frame
import proofs.«409068_j31748398252838_3_alg».proof.Proof.KernelBlocks
import proofs.«409068_j31748398252838_3_alg».proof.Proof.HostArrays
import proofs.«409068_j31748398252838_3_alg».proof.Proof.Spec
import Idealize.ShloMosaic.Lib.Pipeline.Value
import Idealize.ShloMosaic.Lib.StableHlo.Run

noncomputable section

namespace Cert.KernelIdeal.RunValue

open Cert.KernelIdeal Cert.KernelIdeal.Gen Cert.KernelIdeal.Blocks Cert.KernelIdeal.HostArrays
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result buffer after the host operation that follows the launch: the two output arrays joined along axis 1. -/
theorem tail_eq (c : Dev nD) :
    (Pipeline.afterTail₀ cfgs (dats m) 0 (V0 m) [hostOps1] c main_v20 : S64x8192.Idx → EReal)
      = concatenate S64x8192 1 [⟨S64x4096, lowHalf m c⟩, ⟨S64x4096, highHalf m c⟩] concatenates_S64x4096_S64x4096_S64x8192_d1 := by
  unfold Pipeline.afterTail₀
  show StableHlo.after hostOps1 _ (Proc.devRef .tc main_v20) = _
  after_results
  have e9 : Pipeline.withArrays (cfgs 0).spec c (V0 m c) (fun w => (dats m 0 c).arrAt w (cfgs 0).N) (Proc.tc.devRef main_v19_0) = lowHalf m c :=
    (Pipeline.withArrays_arr spec0 launch0.win.arr_inj c _ _ 9).trans (final9 m c)
  have e10 : Pipeline.withArrays (cfgs 0).spec c (V0 m c) (fun w => (dats m 0 c).arrAt w (cfgs 0).N) (Proc.tc.devRef main_v19_1) = highHalf m c :=
    (Pipeline.withArrays_arr spec0 launch0.win.arr_inj c _ _ 10).trans (final10 m c)
  rw [e9, e10]

/-- The packed weights reach the launch as launched. -/
theorem w_eq (c : Dev nD) : (V m c main_arg1 : S4096x8192.Idx → BitVec 32) = wArg m c := V_main_arg1 m c

/-- The joined array is `kOut` of the arguments: channel `o < 4096` is column `o` of the low-field half, channel
    `o ≥ 4096` column `o - 4096` of the high-field half, and each half's arrays are the arguments' (HostArrays.lean). -/
theorem joined_eq (c : Dev nD) :
    concatenate S64x8192 1 [⟨S64x4096, lowHalf m c⟩, ⟨S64x4096, highHalf m c⟩] concatenates_S64x4096_S64x4096_S64x8192_d1
      = Cert.Spec.kOut (xArg m c) (wArg m c) (dArg m c) (zArg m c) (bArg m c) := by
  funext i
  obtain ⟨b, o, rfl⟩ : ∃ (b : Fin 64) (o : Fin 8192), i = ix2 b o := ⟨i 0, i 1, eq_ix2 i⟩
  rw [Cert.Spec.kOut_ix2]
  by_cases h : o.val < 4096
  · rw [concatenate_pair_apply_left (1 : Fin 2) (lowHalf m c) (highHalf m c) concatenates_S64x4096_S64x4096_S64x8192_d1 (ix2 b o) rfl
      (ix2 b (⟨o.val, h⟩ : Fin 4096)) (fun ax => by match ax with | ⟨0, _⟩ => rfl | ⟨1, _⟩ => rfl)]
    have hq : ∀ k, Cert.Spec.q (wArg m c) o k
        = (((Cert.Spec.lowField ((V m c main_arg1 : S4096x8192.Idx → BitVec 32) (ix2 (⟨o.val, h⟩ : Fin 4096) k))).toInt : ℝ) : EReal) := fun k => by
      unfold Cert.Spec.q Cert.Spec.field
      rw [dif_pos h, w_eq]
    show halfAt Cert.Spec.lowField (V m c main_arg1) (V m c main_v4) (V m c main_v6) (V m c main_v8) (V m c main_v12) (V m c main_v16) b (⟨o.val, h⟩ : Fin 4096) = _
    unfold halfAt Cert.Spec.kOutAt
    simp only [hq, xstack_hi m c, xstack_lo m c, rowsum m c, delta_lo m c, zp_lo m c, bias_lo m c]
  · have h' : 4096 ≤ o.val := Nat.le_of_not_lt h
    have ho : o.val - 4096 < 4096 := by have := o.isLt; omega
    rw [concatenate_pair_apply_right (1 : Fin 2) (lowHalf m c) (highHalf m c) concatenates_S64x4096_S64x4096_S64x8192_d1 (ix2 b o) rfl rfl
      (ix2 b (⟨o.val - 4096, ho⟩ : Fin 4096))
      (fun ax hne => by
        obtain ⟨v, hv⟩ := ax
        have hv2 : v < 2 := hv
        have hv0 : v = 0 := by
          by_contra hv0
          have hv1 : v = 1 := by omega
          subst hv1
          exact hne (Fin.ext rfl)
        subst hv0
        rfl)
      (by show (o.val - 4096) + 4096 = o.val; omega)]
    have hq : ∀ k, Cert.Spec.q (wArg m c) o k
        = (((Cert.Spec.highField ((V m c main_arg1 : S4096x8192.Idx → BitVec 32) (ix2 (⟨o.val - 4096, ho⟩ : Fin 4096) k))).toInt : ℝ) : EReal) := fun k => by
      unfold Cert.Spec.q Cert.Spec.field
      rw [dif_neg h, w_eq]
    have hback : ∀ hlt : 4096 + (o.val - 4096) < 8192, (⟨4096 + (o.val - 4096), hlt⟩ : Fin 8192) = o := fun _ => Fin.ext (by show 4096 + (o.val - 4096) = o.val; omega)
    show halfAt Cert.Spec.highField (V m c main_arg1) (V m c main_v4) (V m c main_v6) (V m c main_v10) (V m c main_v14) (V m c main_v18) b (⟨o.val - 4096, ho⟩ : Fin 4096) = _
    unfold halfAt Cert.Spec.kOutAt
    simp only [hq, xstack_hi m c, xstack_lo m c, rowsum m c, delta_hi m c, zp_hi m c, bias_hi m c, hback]

/-- The kernel program's run: the result buffer ends at `kOut` of the arguments, the arguments unchanged. -/
theorem run : θ_run defs (onTc (τ := τ) (main (F := Ideal))) ⟨m, fun _ => 0, ρ⟩ fun r => ∀ c : Dev nD,
      r.2.mem ((c.tc : Thread nD τ).loc main_v20) = Cert.Spec.kOut (xArg m c) (wArg m c) (dArg m c) (zArg m c) (bArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v20 (Pipeline.mem_restRefs_of main_v20 (by decide) (by decide))).trans ((tail_eq m c).trans (joined_eq m c)),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.RunValue

end
-- ==== Proof.lean ====
/-
  A linear layer over 4-bit-quantized weights: `out b o = (∑ k, x b k * ((q o k - zp o) * δ o)) + β o`, where the
  quantized weight `q o k` of output channel `o` is a 4-bit field of a packed word — the low field of packed row `o`
  for the first 4096 channels, the high field of packed row `o - 4096` for the other 4096 (Proof/Spec.lean).

  The reference dequantizes the whole `[8192, 8192]` weight matrix and contracts it with the activation
  (Proof/RefSide.lean reads its stages back to that formula). The kernel never forms the dequantized matrix. It walks
  the packed rows in 16 blocks of 256; per block it contracts the raw fields of both nibbles with the activation —
  split into two parts stacked along the batch axis, which over the extended reals are `x` and `x - x` — adds the two
  partial products, and corrects afterwards: `δ o * (raw b o - zp o * ∑ k, x b k) + β o`, the row sum taken once on
  the host. Proof/KernelBody.lean reads the body's two stores at an index, Proof/KernelBlocks.lean turns the blocks
  written back at the 16 points into whole arrays, Proof/HostArrays.lean reads the arrays the host prepares before the
  launch, and Proof/KernelRun.lean joins the two output halves as the host does after it: the kernel's result is
  `kOut` of the arguments.

  The two formulas agree when `x`, `zp` and `δ` are finite (Proof/Algebra.lean): then `x - x = 0`, and multiplication
  distributes over the sum and the difference — which it does not at the infinities; the precondition (every float
  input finite, Proof/FiniteInputs.lean) is what gives this. The packed words are arbitrary 32-bit words: the mask
  after the arithmetic shift makes both programs read the same field.

  The three frames are the generated ones (the reference's is its generated run with the result dropped); the ideal
  pass rewrote nothing, so `preserves` is `True`.
-/
import proofs.«409068_j31748398252838_3_alg».proof.Defs
import proofs.«409068_j31748398252838_3_alg».proof.Proof.Gen.Kernel
import proofs.«409068_j31748398252838_3_alg».proof.Proof.Gen.Kernel.Skeleton
import proofs.«409068_j31748398252838_3_alg».proof.Proof.Gen.Kernel.Launch
import proofs.«409068_j31748398252838_3_alg».proof.Proof.Gen.Kernel.Points
import proofs.«409068_j31748398252838_3_alg».proof.Proof.Gen.Kernel.Frame
import proofs.«409068_j31748398252838_3_alg».proof.Proof.Gen.KernelIdeal
import proofs.«409068_j31748398252838_3_alg».proof.Proof.Gen.KernelIdeal.Skeleton
import proofs.«409068_j31748398252838_3_alg».proof.Proof.Gen.KernelIdeal.Launch
import proofs.«409068_j31748398252838_3_alg».proof.Proof.Gen.KernelIdeal.Points
import proofs.«409068_j31748398252838_3_alg».proof.Proof.Gen.KernelIdeal.Frame
import proofs.«409068_j31748398252838_3_alg».proof.Proof.Gen.ReferenceIdeal
import proofs.«409068_j31748398252838_3_alg».proof.Proof.Gen.Pre_finite_inputs
import proofs.«409068_j31748398252838_3_alg».proof.Proof.Gen.ReferenceIdeal.Run
import proofs.«409068_j31748398252838_3_alg».proof.Proof.Gen.ReferenceIdeal.Read
import proofs.«409068_j31748398252838_3_alg».proof.Proof.Spec
import proofs.«409068_j31748398252838_3_alg».proof.Proof.Algebra
import proofs.«409068_j31748398252838_3_alg».proof.Proof.FiniteInputs
import proofs.«409068_j31748398252838_3_alg».proof.Proof.RefSide
import proofs.«409068_j31748398252838_3_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no launch: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result buffer at `Spec.out` of the arguments: the kernel at `Spec.kOut`, which is
    `Spec.out` for finite `x`, `δ`, `zp`; the reference at its stages' composed term, which is `Spec.out`. -/
theorem algebraic : Cert.algebraic_KernelIdeal_ReferenceIdeal := by
  intro m ρ m' ρ' hpre hagree
  refine ⟨fun c => Cert.Spec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun _ h c => ⟨(h c).1.trans ?_, (h c).2⟩) (Cert.KernelIdeal.RunValue.run m ρ)
    obtain ⟨hx, hd, hz, -⟩ := Cert.FiniteInputs.of_pre _ _ _ _ _ (hpre c)
    exact Cert.Spec.kOut_eq_out _ _ _ _ _ hx hd hz
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v20_eq, Cert.RefSide.ref_eq, (hagree c).1, (hagree c).2.1, (hagree c).2.2.1,
      (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
